-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3200000 : Shape := ⟨1, ![3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg2 : IVec S3200000 32) (main_v15 : IVec S_ 1) : IVec S_ 1 :=
  let main_c_6 : IVec S_ 32 := constantI S_ 32 100000#32
  let main_v16 : IVec S3200000 32 := broadcastInDim S3200000 ![] bcast_S_S3200000 main_c_6
  let main_v17 : IVec S3200000 1 := cmpi .slt main_arg2 main_v16
  let main_c_7 : IVec S_ 1 := constantI S_ 1 1#1
  let main_v18 : IVec S_ 1 := (fun x v => Host.reduce IntOp.andi x v reducesTo_S3200000_S_d0 h_S_) main_v17 main_c_7
  let main_v19 : IVec S_ 1 := andi main_v15 main_v18
  main_v19

def fn {F : FTy → Type} [FloatOps F] (main_arg0 : FVec F S100000x3 .f32) (main_arg1 : IVec S3200000 32) (main_arg2 : IVec S3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_c_0 : IVec S_ 32 := constantI S_ 32 0#32
  let main_v4 : IVec S3200000 32 := broadcastInDim S3200000 ![] bcast_S_S3200000 main_c_0
  let main_v5 : IVec S3200000 1 := cmpi .sge main_arg1 main_v4
  let main_c_1 : IVec S_ 1 := constantI S_ 1 1#1
  let main_v6 : IVec S_ 1 := (fun x v => Host.reduce IntOp.andi x v reducesTo_S3200000_S_d0 h_S_) main_v5 main_c_1
  let main_v7 : IVec S_ 1 := andi main_v3 main_v6
  let main_c_2 : IVec S_ 32 := constantI S_ 32 100000#32
  let main_v8 : IVec S3200000 32 := broadcastInDim S3200000 ![] bcast_S_S3200000 main_c_2
  let main_v9 : IVec S3200000 1 := cmpi .slt main_arg1 main_v8
  let main_c_3 : IVec S_ 1 := constantI S_ 1 1#1
  let main_v10 : IVec S_ 1 := (fun x v => Host.reduce IntOp.andi x v reducesTo_S3200000_S_d0 h_S_) main_v9 main_c_3
  let main_v11 : IVec S_ 1 := andi main_v7 main_v10
  let main_c_4 : IVec S_ 32 := constantI S_ 32 0#32
  let main_v12 : IVec S3200000 32 := broadcastInDim S3200000 ![] bcast_S_S3200000 main_c_4
  let main_v13 : IVec S3200000 1 := cmpi .sge main_arg2 main_v12
  let main_c_5 : IVec S_ 1 := constantI S_ 1 1#1
  let main_v14 : IVec S_ 1 := (fun x v => Host.reduce IntOp.andi x v reducesTo_S3200000_S_d0 h_S_) main_v13 main_c_5
  let main_v15 : IVec S_ 1 := andi main_v11 main_v14
  fn_part1 (F := F) main_arg2 main_v15
-- ==== Kernel.lean ====
abbrev S100000x3 : Shape := ⟨2, ![100000, 3]⟩
abbrev S3200000 : Shape := ⟨1, ![3200000]⟩
abbrev S3x100000 : Shape := ⟨2, ![3, 100000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3x3200000 : Shape := ⟨2, ![3, 3200000]⟩
abbrev S3x64000 : Shape := ⟨2, ![3, 64000]⟩
abbrev S64000 : Shape := ⟨1, ![64000]⟩
abbrev S1x64000 : Shape := ⟨2, ![1, 64000]⟩
abbrev S3200000x3 : Shape := ⟨2, ![3200000, 3]⟩

abbrev nBuf : Space → Nat
  | .hbm => 56
  | .vmem => 6
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S3x100000, .f32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S1, .i32⟩
  | .hbm, ⟨13, _⟩ => ⟨S_, .i32⟩
  | .hbm, ⟨14, _⟩ => ⟨S3200000x1, .i32⟩
  | .hbm, ⟨15, _⟩ => ⟨S3200000x1, .i1⟩
  | .hbm, ⟨16, _⟩ => ⟨S1x1, .i32⟩
  | .hbm, ⟨17, _⟩ => ⟨S3200000x1, .i32⟩
  | .hbm, ⟨18, _⟩ => ⟨S3200000x1, .i1⟩
  | .hbm, ⟨19, _⟩ => ⟨S3200000x1, .i1⟩
  | .hbm, ⟨20, _⟩ => ⟨S_, .i1⟩
  | .hbm, ⟨21, _⟩ => ⟨S3200000, .i1⟩
  | .hbm, ⟨22, _⟩ => ⟨S3x3200000, .f32⟩
  | .hbm, ⟨23, _⟩ => ⟨S3x3200000, .i1⟩
  | .hbm, ⟨24, _⟩ => ⟨S_, .f32⟩
  | .hbm, ⟨25, _⟩ => ⟨S3x3200000, .f32⟩
  | .hbm, ⟨26, _⟩ => ⟨S3x3200000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S1, .i32⟩
  | .hbm, ⟨36, _⟩ => ⟨S_, .i32⟩
  | .hbm, ⟨37, _⟩ => ⟨S3200000x1, .i32⟩
  | .hbm, ⟨38, _⟩ => ⟨S3200000x1, .i1⟩
  | .hbm, ⟨39, _⟩ => ⟨S1x1, .i32⟩
  | .hbm, ⟨40, _⟩ => ⟨S3200000x1, .i32⟩
  | .hbm, ⟨41, _⟩ => ⟨S3200000x1, .i1⟩
  | .hbm, ⟨42, _⟩ => ⟨S3200000x1, .i1⟩
  | .hbm, ⟨43, _⟩ => ⟨S_, .i1⟩
  | .hbm, ⟨44, _⟩ => ⟨S3200000, .i1⟩
  | .hbm, ⟨45, _⟩ => ⟨S3x3200000, .f32⟩
  | .hbm, ⟨46, _⟩ => ⟨S3x3200000, .i1⟩
  | .hbm, ⟨47, _⟩ => ⟨S_, .f32⟩
  | .hbm, ⟨48, _⟩ => ⟨S3x3200000, .f32⟩
  | .hbm, ⟨49, _⟩ => ⟨S3x3200000, .f32⟩
  | .hbm, ⟨50, _⟩ => ⟨S3x3200000, .f32⟩
  | .hbm, ⟨51, _⟩ => ⟨S3200000x3, .f32⟩
  | .hbm, ⟨52, _⟩ => ⟨S_, .f32⟩
  | .hbm, ⟨53, _⟩ => ⟨S100000x3, .f32⟩
  | .hbm, ⟨54, _⟩ => ⟨S3200000x1, .i32⟩
  | .hbm, ⟨55, _⟩ => ⟨S100000x3, .f32⟩
  | .local _ .vmem, ⟨0, _⟩ => ⟨S3x64000, .f32⟩
  | .local _ .vmem, ⟨1, _⟩ => ⟨S3x64000, .f32⟩
  | .local _ .vmem, ⟨2, _⟩ => ⟨S3x64000, .f32⟩
  | .local _ .vmem, ⟨3, _⟩ => ⟨S3x64000, .f32⟩
  | .local _ .vmem, ⟨4, _⟩ => ⟨S3x64000, .f32⟩
  | .local _ .vmem, ⟨5, _⟩ => ⟨S3x64000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_cst : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x3_S3x100000_1_0 : S100000x3.Transposes [1, 0] S3x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3x3200000_1 : S3200000.BroadcastsInDim S3x3200000 (![1] : Fin 1 → Fin S3x3200000.rank)
  bcast_S_S3x3200000 : S_.BroadcastsInDim S3x3200000 (![] : Fin 0 → Fin S3x3200000.rank)
  inb_S3x64000_S3x64000_0_0 : ∀ a, (![0, 0] : Fin 2 → Nat) a + S3x64000.size a ≤ S3x64000.size a
  h_S3x64000 : 0 < S3x64000.numel
  shapeCasts_S3x64000_S3x64000 : S3x64000.ShapeCasts S3x64000
  reduces_S3x64000_S64000 : S3x64000.Reduces [0] S64000
  shapeCasts_S64000_S1x64000 : S64000.ShapeCasts S1x64000
  broadcasts_S1x64000_S3x64000 : S1x64000.Broadcasts S3x64000
  transposes_S3x3200000_S3200000x3_1_0 : S3x3200000.Transposes [1, 0] S3200000x3
  bcast_S_S100000x3 : S_.BroadcastsInDim S100000x3 (![] : Fin 0 → Fin S100000x3.rank)
  gather_S3x100000_S3200000x1_S3x3200000_0_1_n_n_1_1_31_wf : GatherDims.WF S3x100000 S3200000x1 S3x3200000 [0] [1] [] [1] [] 1 ![3, 1]
  scatter_S100000x3_S3200000x1_S3200000x3_1_0_0_1_wf : ScatterDims.WF S100000x3 S3200000x1 S3200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64000.size a ≤ S3x3200000.size a
  hwx0_0 : ∀ i : grid0.Coords, EltTy.bits .f32 = 32 ∨ (Rect.block (s := S3x3200000) S3x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x64000.size a ≤ S3x3200000.size a
  hwx0_1 : ∀ i : grid0.Coords, EltTy.bits .f32 = 32 ∨ (Rect.block (s := S3x3200000) S3x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x64000.size a ≤ S3x3200000.size a
  hwx0_2 : ∀ i : grid0.Coords, EltTy.bits .f32 = 32 ∨ (Rect.block (s := S3x3200000) S3x64000.size (cc0_transform_2 i) (hinb0_2 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

abbrev win0_0 : Pipeline.Window sig grid0 :=
  Pipeline.Window.ofSpec (Memref.whole main_v1) S3x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x64000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x3 : Shape := ⟨2, ![100000, 3]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩

abbrev nBuf : Space → Nat
  | .hbm => 58
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S_, .i32⟩
  | .hbm, ⟨4, _⟩ => ⟨S3200000, .i32⟩
  | .hbm, ⟨5, _⟩ => ⟨S3200000, .i1⟩
  | .hbm, ⟨6, _⟩ => ⟨S_, .i32⟩
  | .hbm, ⟨7, _⟩ => ⟨S3200000, .i32⟩
  | .hbm, ⟨8, _⟩ => ⟨S3200000, .i32⟩
  | .hbm, ⟨9, _⟩ => ⟨S3200000, .i32⟩
  | .hbm, ⟨10, _⟩ => ⟨S3200000x1, .i32⟩
  | .hbm, ⟨11, _⟩ => ⟨S3200000x3, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x3, .f32⟩
  | .hbm, ⟨21, _⟩ => ⟨S3200000x3, .f32⟩
  | .hbm, ⟨22, _⟩ => ⟨S3200000x3, .f32⟩
  | .hbm, ⟨23, _⟩ => ⟨S_, .f32⟩
  | .hbm, ⟨24, _⟩ => ⟨S3200000, .f32⟩
  | .hbm, ⟨25, _⟩ => ⟨S3200000x1, .f32⟩
  | .hbm, ⟨26, _⟩ => ⟨S3200000x1, .f32⟩
  | .hbm, ⟨27, _⟩ => ⟨S_, .f32⟩
  | .hbm, ⟨28, _⟩ => ⟨S3200000x1, .f32⟩
  | .hbm, ⟨29, _⟩ => ⟨S3200000x1, .f32⟩
  | .hbm, ⟨30, _⟩ => ⟨S3200000x3, .f32⟩
  | .hbm, ⟨31, _⟩ => ⟨S3200000x3, .f32⟩
  | .hbm, ⟨32, _⟩ => ⟨S_, .f32⟩
  | .hbm, ⟨33, _⟩ => ⟨S3200000x1, .f32⟩
  | .hbm, ⟨34, _⟩ => ⟨S3200000x1, .f32⟩
  | .hbm, ⟨35, _⟩ => ⟨S3200000x1, .f32⟩
  | .hbm, ⟨36, _⟩ => ⟨S3200000x1, .f32⟩
  | .hbm, ⟨37, _⟩ => ⟨S3200000x1, .f32⟩
  | .hbm, ⟨38, _⟩ => ⟨S_, .f32⟩
  | .hbm, ⟨39, _⟩ => ⟨S3200000x1, .f32⟩
  | .hbm, ⟨40, _⟩ => ⟨S3200000x1, .f32⟩
  | .hbm, ⟨41, _⟩ => ⟨S3200000x1, .f32⟩
  | .hbm, ⟨42, _⟩ => ⟨S3200000x1, .f32⟩
  | .hbm, ⟨43, _⟩ => ⟨S3200000x1, .f32⟩
  | .hbm, ⟨44, _⟩ => ⟨S_, .f32⟩
  | .hbm, ⟨45, _⟩ => ⟨S3200000x1, .f32⟩
  | .hbm, ⟨46, _⟩ => ⟨S3200000x1, .f32⟩
  | .hbm, ⟨47, _⟩ => ⟨S_, .f32⟩
  | .hbm, ⟨48, _⟩ => ⟨S3200000x1, .f32⟩
  | .hbm, ⟨49, _⟩ => ⟨S3200000x1, .f32⟩
  | .hbm, ⟨50, _⟩ => ⟨S3200000x1, .f32⟩
  | .hbm, ⟨51, _⟩ => ⟨S3200000x1, .f32⟩
  | .hbm, ⟨52, _⟩ => ⟨S3200000x3, .f32⟩
  | .hbm, ⟨53, _⟩ => ⟨S3200000x3, .f32⟩
  | .hbm, ⟨54, _⟩ => ⟨S_, .f32⟩
  | .hbm, ⟨55, _⟩ => ⟨S100000x3, .f32⟩
  | .hbm, ⟨56, _⟩ => ⟨S3200000x1, .i32⟩
  | .hbm, ⟨57, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  bcast_S_S100000x3 : S_.BroadcastsInDim S100000x3 (![] : Fin 0 → Fin S100000x3.rank)
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.Force.lean ====
/-
  The pair force of the Lennard-Jones potential, as both programs compute it on the extended reals.

  For a separation vector with Euclidean length `r`, put `s = 1 / r`. The force magnitude is
  `4 s⁶ (12 s⁶ − 6) / r`. One program divides by `r` at the end, the other multiplies by the reciprocal `1 / r`
  it already holds (and forms `s` as `1 · (1 / r)`). Off `r = 0` the quotient IS the product with the inverse, so
  the two agree. At `r = 0` the reciprocal is `+∞`, every power of it is `+∞`, `12 · ∞ − 6 = +∞`, and the
  strength `4 s⁶ (12 s⁶ − 6)` is `+∞`: a positive number over zero and a positive number times `+∞` are both `+∞`.
  So the two spellings are one function of `r` on ALL extended reals; no finiteness is used.
-/
import Idealize.ShloMosaic.PureOps.Ideal

noncomputable section

namespace Cert.PairForce

open Idealize.ShloMosaic

/-! ## The four literals, as real numbers -/

/-- The word of `1.0` denotes `1`. -/
theorem ofBits_one : Ideal.ofBits .f32 0x3F800000#32 = 1 := by
  simp [Ideal.ofBits, Ideal.ieee, -EReal.coe_mul]; norm_num

/-- The word of `4.0` denotes the real `4`. -/
theorem ofBits_four : Ideal.ofBits .f32 0x40800000#32 = ((4 : ℝ) : EReal) := by
  simp [Ideal.ofBits, Ideal.ieee, -EReal.coe_mul]; norm_num

/-- The word of `12.0` denotes the real `12`. -/
theorem ofBits_twelve : Ideal.ofBits .f32 0x41400000#32 = ((12 : ℝ) : EReal) := by
  simp [Ideal.ofBits, Ideal.ieee, -EReal.coe_mul]; norm_num

/-- The word of `6.0` denotes the real `6`. -/
theorem ofBits_six : Ideal.ofBits .f32 0x40C00000#32 = ((6 : ℝ) : EReal) := by
  simp [Ideal.ofBits, Ideal.ieee, -EReal.coe_mul]; norm_num

/-! ## Quotient against product with the reciprocal -/

/-- The reciprocal of zero is `+∞`. -/
theorem div_one_zero : Ideal.div 1 0 = ⊤ := by
  unfold Ideal.div
  rw [if_pos rfl, if_pos zero_lt_one]

/-- `x · (1 / y) = x / y` unless `x` and `y` are both zero (where the left side is `0 · ∞ = 0` and the right
    side the junk value of `0 / 0`). -/
theorem mul_div_one (x y : EReal) (h : y ≠ 0 ∨ x ≠ 0) : x * Ideal.div 1 y = Ideal.div x y := by
  by_cases hy : y = 0
  · subst hy
    have hx : x ≠ 0 := h.resolve_left (fun h0 => h0 rfl)
    rw [div_one_zero]
    unfold Ideal.div
    rw [if_pos rfl]
    rcases lt_or_gt_of_ne hx with hneg | hpos
    · rw [if_neg (not_lt.2 hneg.le), EReal.mul_top_of_neg hneg]
    · rw [if_pos hpos, EReal.mul_top_of_pos hpos]
  · unfold Ideal.div
    rw [if_neg hy, if_neg hy, one_mul]

/-! ## The strength `4 s⁶ (12 s⁶ − 6)` -/

/-- The sixth power as both programs multiply it out: `s² · (s² · s²)`. -/
def pow6 (s : EReal) : EReal := (s * s) * ((s * s) * (s * s))

/-- `4 s⁶ (12 s⁶ − 6)`, over the literals' words. -/
def strength (s : EReal) : EReal :=
  (Ideal.ofBits .f32 0x40800000#32 * pow6 s) * (Ideal.ofBits .f32 0x41400000#32 * pow6 s - Ideal.ofBits .f32 0x40C00000#32)

/-- At `s = +∞` the strength is `+∞`. -/
theorem strength_top : strength ⊤ = ⊤ := by
  unfold strength pow6
  rw [ofBits_four, ofBits_twelve, ofBits_six]
  simp only [EReal.top_mul_top]
  rw [EReal.coe_mul_top_of_pos (by norm_num : (0 : ℝ) < 4), EReal.coe_mul_top_of_pos (by norm_num : (0 : ℝ) < 12),
    EReal.top_sub_coe, EReal.top_mul_top]

/-- THE LAW: the strength of `1 · (1 / r)` times the reciprocal `1 / r` is the strength of `1 / r` over `r`, for
    every extended real `r`. -/
theorem force_eq (r : EReal) :
    strength (Ideal.ofBits .f32 0x3F800000#32 * Ideal.div (Ideal.ofBits .f32 0x3F800000#32) r)
        * Ideal.div (Ideal.ofBits .f32 0x3F800000#32) r
      = Ideal.div (strength (Ideal.div (Ideal.ofBits .f32 0x3F800000#32) r)) r := by
  rw [ofBits_one, one_mul]
  refine mul_div_one _ _ ?_
  by_cases hr : r = 0
  · right
    subst hr
    rw [div_one_zero, strength_top]
    exact EReal.top_ne_zero
  · exact Or.inl hr

end Cert.PairForce

end
-- ==== Proof.Spec.lean ====
/-
  The message array both programs scatter, as ONE function of the argument arrays.

  An edge `e` joins the node `src e` to the node `dst e`. With `a`, `b` the two nodes' positions (three coordinates
  each), `Δ = a − b`, `r = √(Δ·Δ)` and `s = 1 / r`, the edge's message is the vector
  `(4 s⁶ (12 s⁶ − 6) / r) · Δ / max(r, ε)`: the pair force along the unit separation. Both programs read a node's
  position through a gather whose start index is the index word with `100000` added when it is negative, read signed
  and clamped into the table; `node` and `wrap` below are those two steps, so that the message needs no hypothesis on
  the index words to be stated.
-/
import proofs.«400013_j50328426774889_1_alg».proof.Proof.Force
import Idealize.ShloMosaic.Lib.ValueIdx
import Idealize.ShloMosaic.Lib.Affine

noncomputable section

namespace Cert.PairForce

open Idealize.ShloMosaic Idealize.ShloMosaic.ValueIdx

/-- The table row a start-index word selects: the word read signed, clamped into `[0, 99999]`. -/
def node (w : BitVec 32) : Fin 100000 := ⟨min w.toInt.toNat 99999, by omega⟩

/-- An index word with the table's length added when it is negative. -/
def wrap (w : BitVec 32) : BitVec 32 := Scalar.select (IntOp.cmpi .slt w 0#32) (IntOp.addi w 100000#32) w

/-- A word in `[0, 100000)` is not negative: it is its own wrap. -/
theorem wrap_of_nonneg {w : BitVec 32} (h : 0 ≤ w.toInt) : wrap w = w := by
  unfold wrap Scalar.select
  rw [if_neg]
  intro hc
  have := IntOp.cmpi_slt.1 hc
  rw [show (0#32 : BitVec 32).toInt = 0 from rfl] at this
  omega

/-- The position of the node an edge's index word names: row `node (wrap w)` of the table. -/
def pos (x : (⟨2, ![100000, 3]⟩ : Shape).Idx → EReal) (idx : (⟨1, ![3200000]⟩ : Shape).Idx → BitVec 32) (e : Fin 3200000) :
    Fin 3 → EReal :=
  fun k => x (ix2 (node (wrap (idx (ix1 e)))) k)

/-- The separation's length `√(Δ·Δ)`. -/
def dist (a b : Fin 3 → EReal) : EReal := Ideal.sqrt (∑ k : Fin 3, (a k - b k) * (a k - b k))

/-- Component `d` of the message of an edge whose endpoints sit at `a` and `b`: the force magnitude
    `strength (1 / r) / r` times the separation over `max(r, ε)`. -/
def edgeMsg (a b : Fin 3 → EReal) (d : Fin 3) : EReal :=
  Ideal.div (strength (Ideal.div (Ideal.ofBits .f32 0x3F800000#32) (dist a b))) (dist a b)
    * Ideal.div (a d - b d) (max (dist a b) (Ideal.ofBits .f32 0x2B8CBCCC#32))

/-- The same with the magnitude spelt as a product with the reciprocal, `strength (1 · (1 / r)) · (1 / r)`:
    equal by the law of the pair force. -/
theorem edgeMsg_recip (a b : Fin 3 → EReal) (d : Fin 3) :
    (strength (Ideal.ofBits .f32 0x3F800000#32 * Ideal.div (Ideal.ofBits .f32 0x3F800000#32) (dist a b))
        * Ideal.div (Ideal.ofBits .f32 0x3F800000#32) (dist a b))
      * Ideal.div (a d - b d) (max (dist a b) (Ideal.ofBits .f32 0x2B8CBCCC#32))
    = edgeMsg a b d := by
  unfold edgeMsg
  rw [force_eq]

/-- THE MESSAGE ARRAY: at `(e, d)`, component `d` of edge `e`'s message. -/
def message (x : (⟨2, ![100000, 3]⟩ : Shape).Idx → EReal) (src dst : (⟨1, ![3200000]⟩ : Shape).Idx → BitVec 32) :
    (⟨2, ![3200000, 3]⟩ : Shape).Idx → EReal :=
  fun i => edgeMsg (pos x src ⟨(i 0).val, idx2_lt0 i⟩) (pos x dst ⟨(i 0).val, idx2_lt0 i⟩) ⟨(i 1).val, idx2_lt1 i⟩

theorem message_apply (x : (⟨2, ![100000, 3]⟩ : Shape).Idx → EReal) (src dst : (⟨1, ![3200000]⟩ : Shape).Idx → BitVec 32)
    (e : Fin 3200000) (d : Fin 3) : message x src dst (ix2 e d) = edgeMsg (pos x src e) (pos x dst e) d := rfl

end Cert.PairForce

end
-- ==== Proof.Range.lean ====
/-
  What the precondition says of the two index arrays: every source and every destination word, read signed, lies in
  `[0, 100000)` — it names a row of the position table.

  The precondition is a conjunction of five `all`-reductions (the table finite; `0 ≤ src`; `src < 100000`; `0 ≤ dst`;
  `dst < 100000`), each a reduce by `and` from `true` into one element; the conjunction being `1`, each reduction is
  `1`, so each of its comparison bits is `1`, and a signed comparison bit says the inequality of the signed readings.
-/
import proofs.«400013_j50328426774889_1_alg».proof.Pre_finite_inputs
import Idealize.ShloMosaic.Lib.ReduceAll
import Idealize.ShloMosaic.Lib.ValueIdx

noncomputable section

namespace Cert.PairForce

open Idealize.ShloMosaic Cert.Pre_finite_inputs

/-- The scalar shape has one index. -/
instance : Subsingleton S_.Idx := ⟨fun a b => funext fun d => d.elim0⟩

/-- Every word of an index array names a row of the table. -/
def InRange (idx : (⟨1, ![3200000]⟩ : Shape).Idx → BitVec 32) : Prop := ∀ i, 0 ≤ (idx i).toInt ∧ (idx i).toInt < 100000

/-- The precondition puts both index arrays in range. -/
theorem inRange_of_pre [Facts] {F : FTy → Type} [FloatOps F] (x : FVec F S100000x3 .f32) (src dst : IVec S3200000 32)
    (h : fn (F := F) x src dst = fun _ => 1#1) : InRange src ∧ InRange dst := by
  have h0 := congrFun h ValueIdx.ix0
  dsimp only [fn, fn_part1] at h0
  obtain ⟨h1, hd2⟩ := IntOp.andi_eq_one.1 h0
  obtain ⟨h2, hd1⟩ := IntOp.andi_eq_one.1 h1
  obtain ⟨h3, hs2⟩ := IntOp.andi_eq_one.1 h2
  obtain ⟨-, hs1⟩ := IntOp.andi_eq_one.1 h3
  have e0 : (0#32 : BitVec 32).toInt = 0 := by decide
  have eN : (100000#32 : BitVec 32).toInt = 100000 := by decide
  refine ⟨fun i => ⟨?_, ?_⟩, fun i => ⟨?_, ?_⟩⟩
  · have := IntOp.cmpi_sge.1 (Host.reduce_andi_all _ _ _ _ _ hs1 i)
    change (0#32 : BitVec 32).toInt ≤ (src i).toInt at this
    rwa [e0] at this
  · have := IntOp.cmpi_slt.1 (Host.reduce_andi_all _ _ _ _ _ hs2 i)
    change (src i).toInt < (100000#32 : BitVec 32).toInt at this
    rwa [eN] at this
  · have := IntOp.cmpi_sge.1 (Host.reduce_andi_all _ _ _ _ _ hd1 i)
    change (0#32 : BitVec 32).toInt ≤ (dst i).toInt at this
    rwa [e0] at this
  · have := IntOp.cmpi_slt.1 (Host.reduce_andi_all _ _ _ _ _ hd2 i)
    change (dst i).toInt < (100000#32 : BitVec 32).toInt at this
    rwa [eN] at this

end Cert.PairForce

end
-- ==== Proof.KernelInputs.lean ====
/-
  What the two input arrays of the region hold: the positions of each edge's endpoints, laid out `[3, edges]`.

  Before the region the kernel program transposes the position table to `[3, nodes]` and takes its columns at the
  source words and at the destination words. A take wraps a negative word, gathers (a gather clamps its start index)
  and then keeps the gathered value only where the wrapped word lies in `[0, 99999]`, filling elsewhere. With every
  index word in `[0, 100000)` the wrap is the identity and the range test passes at every edge, so entry `(d, e)` of the
  result is coordinate `d` of the position of the node edge `e`'s word names.
-/
import proofs.«400013_j50328426774889_1_alg».proof.Proof.Spec
import proofs.«400013_j50328426774889_1_alg».proof.Proof.Range
import proofs.«400013_j50328426774889_1_alg».proof.Proof.Gen.KernelIdeal.Frame
import Idealize.ShloMosaic.Lib.StableHlo.Run
import Idealize.ShloMosaic.Lib.Pipeline.Value

noncomputable section

namespace Cert.PairForce.Kernel

open Cert.KernelIdeal Cert.KernelIdeal.Gen Idealize.ShloMosaic Idealize.ShloMosaic.TcCoe Idealize.ShloMosaic.ValueIdx Cert.PairForce
open Idealize.SL.Sem Idealize.ShloMosaic.StableHlo

/-- The gather of columns of the transposed table, read at `(d, e)`: row `d` at the column the start index at `(e, 0)`
    selects (the start index read signed and clamped into the table). -/
theorem gatherCols_apply {α : Type} (x : S3x100000.Idx → α) (idx : IVec S3200000x1 32) (d : Fin 3) (e : Fin 3200000) :
    Host.gather gather_S3x100000_S3200000x1_S3x3200000_0_1_n_n_1_1_31 x idx (ix2 d e)
      = x (ix2 d (node (idx (ix2 e (0 : Fin 1))))) := by
  unfold Host.gather
  refine congrArg x (funext fun a => Fin.ext ?_)
  match a with
  | ⟨1, _⟩ =>
    show GatherDims.start gather_S3x100000_S3200000x1_S3x3200000_0_1_n_n_1_1_31 (ix2 d e) idx (1 : Fin 2)
      + GatherDims.batchCoord gather_S3x100000_S3200000x1_S3x3200000_0_1_n_n_1_1_31 (ix2 d e) (1 : Fin 2)
      + GatherDims.offCoord gather_S3x100000_S3200000x1_S3x3200000_0_1_n_n_1_1_31 (ix2 d e) (1 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S3x100000_S3200000x1_S3x3200000_0_1_n_n_1_1_31 from
      List.mem_singleton.mpr rfl)]
    have hsi : GatherDims.siIdx gather_S3x100000_S3200000x1_S3x3200000_0_1_n_n_1_1_31 (ix2 d e)
        ⟨List.idxOf (1 : Fin 2) (GatherDims.startIndexMap gather_S3x100000_S3200000x1_S3x3200000_0_1_n_n_1_1_31),
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨0, _⟩ =>
    show GatherDims.start gather_S3x100000_S3200000x1_S3x3200000_0_1_n_n_1_1_31 (ix2 d e) idx (0 : Fin 2)
      + GatherDims.batchCoord gather_S3x100000_S3200000x1_S3x3200000_0_1_n_n_1_1_31 (ix2 d e) (0 : Fin 2)
      + GatherDims.offCoord gather_S3x100000_S3200000x1_S3x3200000_0_1_n_n_1_1_31 (ix2 d e) (0 : Fin 2) = _
    rw [GatherDims.batchCoord_eq_zero _ _ _ List.not_mem_nil]
    unfold GatherDims.start
    rw [dif_neg (show (0 : Fin 2) ∉ GatherDims.startIndexMap gather_S3x100000_S3200000x1_S3x3200000_0_1_n_n_1_1_31 from
      fun h => absurd (List.mem_singleton.mp h : (0 : Fin 2) = 1) (by decide))]
    simp only [Nat.add_zero, Nat.zero_add]
    unfold GatherDims.offCoord
    rw [dif_pos ((GatherDims.mem_sKept gather_S3x100000_S3200000x1_S3x3200000_0_1_n_n_1_1_31 (0 : Fin 2)).mpr
      ⟨fun h => absurd (List.mem_singleton.mp h : (0 : Fin 2) = 1) (by decide), List.not_mem_nil⟩)]
    rfl

/-! ## A reduce by `and` of an array of ones is one -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  unfold Host.reduce
  rw [hi]
  exact foldl_andi_one _ _ fun n _ => hx _

/-! ## The take -/

variable {F : FTy → Type} [FloatOps F]

/-- The start-index column of a take: the index words, wrapped when negative, as a `[edges, 1]` array. -/
def wrapCol (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 100000#32))) idx)

/-- The range test of a take, per edge: the wrapped word in `[0, 99999]`. -/
def inTable (idx : IVec S3200000 32) : IVec S3200000 1 :=
  Host.reduce IntOp.andi
    (andi (cmpi .sge (wrapCol idx) (broadcastInDim S3200000x1 ![] bcast_S_S3200000x1 (constantI S_ 32 0#32)))
      (cmpi .sle (wrapCol idx) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The take of the transposed table's columns at the index words. -/
def takeCols (x : FVec F S100000x3 .f32) (idx : IVec S3200000 32) : FVec F S3x3200000 .f32 :=
  select (broadcastInDim S3x3200000 ![1] bcast_S3200000_S3x3200000_1 (inTable idx))
    (Host.gather gather_S3x100000_S3200000x1_S3x3200000_0_1_n_n_1_1_31
      (transpose S3x100000 [1, 0] x transposes_S100000x3_S3x100000_1_0) (wrapCol idx))
    (broadcastInDim S3x3200000 ![] bcast_S_S3x3200000 (constant S_ .f32 0x7FC00000#32))

/-- The start-index column at `(e, u)`: edge `e`'s word, wrapped. -/
theorem wrapCol_apply (idx : IVec S3200000 32) (e : Fin 3200000) (u : Fin 1) : wrapCol idx (ix2 e u) = wrap (idx (ix1 e)) := by
  unfold wrapCol
  rw [broadcastInDim_apply _ bcast_S3200000_S3200000x1_0 _ (ix2 e u) (ix1 e) (fun a => match a with
    | ⟨0, _⟩ => by show e.val = if (3200000 : Nat) = 1 then 0 else e.val; rw [if_neg (by decide)])]
  rfl

/-- With the index words in range the range test passes at every edge. -/
theorem inTable_eq_one (idx : IVec S3200000 32) (h : InRange idx) (j : S3200000.Idx) : inTable idx j = 1#1 := by
  unfold inTable
  refine reduce_andi_one _ _ _ _ j (fun i => ?_) rfl
  obtain ⟨e, u, rfl⟩ : ∃ (e : Fin 3200000) (u : Fin 1), i = ix2 e u := ⟨i 0, i 1, eq_ix2 i⟩
  have hw : wrapCol idx (ix2 e u) = idx (ix1 e) := by rw [wrapCol_apply, wrap_of_nonneg (h (ix1 e)).1]
  show IntOp.andi (IntOp.cmpi .sge (wrapCol idx (ix2 e u)) 0#32) (IntOp.cmpi .sle (wrapCol idx (ix2 e u)) 99999#32) = 1#1
  rw [hw]
  refine IntOp.andi_eq_one.2 ⟨IntOp.cmpi_sge.2 ?_, IntOp.cmpi_sle.2 ?_⟩
  · rw [show (0#32 : BitVec 32).toInt = 0 from by decide]; exact (h (ix1 e)).1
  · rw [show (99999#32 : BitVec 32).toInt = 99999 from by decide]; have := (h (ix1 e)).2; omega

/-- THE TAKE AT `(d, e)`, the index words in range: coordinate `d` of the position of the node edge `e`'s word names. -/
theorem takeCols_apply (x : FVec Ideal S100000x3 .f32) (idx : IVec S3200000 32) (h : InRange idx) (d : Fin 3) (e : Fin 3200000) :
    takeCols (F := Ideal) x idx (ix2 d e) = pos x idx e d := by
  unfold takeCols
  rw [select_apply, broadcastInDim_apply _ bcast_S3200000_S3x3200000_1 _ (ix2 d e) (ix1 e) (fun a => match a with
    | ⟨0, _⟩ => by show e.val = if (3200000 : Nat) = 1 then 0 else e.val; rw [if_neg (by decide)]),
    inTable_eq_one idx h, select_one, gatherCols_apply, wrapCol_apply,
    transpose_apply [1, 0] x transposes_S100000x3_S3x100000_1_0 (ix2 d (node (wrap (idx (ix1 e)))))
      (ix2 (node (wrap (idx (ix1 e)))) d) (fun b => match b with
        | ⟨0, _⟩ => rfl
        | ⟨1, _⟩ => rfl)]
  rfl

/-! ## The region's input arrays -/

/-- Contents carried to a buffer's own type and back are the contents. -/
theorem ofBuf_toBuf {T : BufTy} (x : TRef sig T) (v : T.Contents (Elt F)) : x.ofBuf (x.toBuf v) = v := by
  obtain ⟨r, rfl, _, _⟩ := x
  rfl

/-- At the buffers the two takes read and write, whose types are the values' own, the carrying is the identity. -/
theorem toBuf_sources (v : (⟨S3x3200000, .f32⟩ : BufTy).Contents (Elt F)) :
    (TRef.of main_v1 : TRef sig ⟨S3x3200000, .f32⟩).toBuf v = v := rfl
theorem toBuf_dests (v : (⟨S3x3200000, .f32⟩ : BufTy).Contents (Elt F)) :
    (TRef.of main_v2 : TRef sig ⟨S3x3200000, .f32⟩).toBuf v = v := rfl
theorem ofBuf_srcWords (u : (⟨S3200000, .i32⟩ : BufTy).Contents (Elt F)) :
    (TRef.of main_arg1 : TRef sig ⟨S3200000, .i32⟩).ofBuf u = u := rfl
theorem ofBuf_dstWords (u : (⟨S3200000, .i32⟩ : BufTy).Contents (Elt F)) :
    (TRef.of main_arg2 : TRef sig ⟨S3200000, .i32⟩).ofBuf u = u := rfl
theorem ofBuf_tableT (u : (⟨S3x100000, .f32⟩ : BufTy).Contents (Elt F)) :
    (TRef.of main_v0 : TRef sig ⟨S3x100000, .f32⟩).ofBuf u = u := rfl

variable (m : (ℓ : Loc nD τ sig) → Buf (Elt F) ℓ)

set_option maxHeartbeats 4000000 in
/-- The first input array of the region is the take at the source words. -/
theorem V_sources (c : Dev nD) :
    (V m c main_v1 : S3x3200000.Idx → Elt F .f32)
      = takeCols (m ((c : Thread nD τ).loc main_arg0)) (m ((c : Thread nD τ).loc main_arg1)) := by
  dsimp only [V, V0]
  simp only [hostOps0, hostOps0_1, hostOps0_2, List.flatten_cons, List.flatten_nil, List.append_nil, List.cons_append,
    List.nil_append]
  after_results_simp
  unfold takeCols inTable wrapCol
  simp only [ofBuf_toBuf, toBuf_sources, toBuf_dests, ofBuf_srcWords, ofBuf_dstWords, ofBuf_tableT]

set_option maxHeartbeats 4000000 in
/-- The second input array of the region is the take at the destination words. -/
theorem V_dests (c : Dev nD) :
    (V m c main_v2 : S3x3200000.Idx → Elt F .f32)
      = takeCols (m ((c : Thread nD τ).loc main_arg0)) (m ((c : Thread nD τ).loc main_arg2)) := by
  dsimp only [V, V0]
  simp only [hostOps0, hostOps0_1, hostOps0_2, List.flatten_cons, List.flatten_nil, List.append_nil, List.cons_append,
    List.nil_append]
  after_results_simp
  unfold takeCols inTable wrapCol
  simp only [ofBuf_toBuf, toBuf_sources, toBuf_dests, ofBuf_srcWords, ofBuf_dstWords, ofBuf_tableT]

end Cert.PairForce.Kernel

end
-- ==== Proof.KernelPayload.lean ====
/-
  What the kernel body stores, read at one entry of its block.

  The body works on a `[3, 64000]` block of source positions and one of destination positions (three coordinates by
  64000 edges). It subtracts them, sums the three squares down each column (a sum of three terms: the reduction over the
  first axis), takes the square root — the norm row, `[1, 64000]` — and then, per column `j` with norm `r`, forms the
  reciprocal `1 / r`, `s = 1 · (1 / r)`, the strength `4 s⁶ (12 s⁶ − 6)`, the magnitude `strength · (1 / r)`, and stores
  `magnitude · Δ / max(r, ε)` at every row `d`. That is `edgeMsg` of the two columns in its reciprocal spelling, equal
  to the quotient spelling by the law of the pair force.
  The body is cut at the norm row: everything after it is a function `forceBlock` of the separation block and the norm
  row, read at an index for any norm row.
-/
import proofs.«400013_j50328426774889_1_alg».proof.Proof.Spec
import proofs.«400013_j50328426774889_1_alg».proof.Proof.Gen.KernelIdeal.Skeleton
import Idealize.ShloMosaic.Lib.Pipeline.Value
import Idealize.ShloMosaic.Lib.ValueLayout
import Idealize.ShloMosaic.PureOps.Ideal.Laws

noncomputable section
namespace Cert.PairForce.Kernel
open Cert.KernelIdeal Cert.KernelIdeal.Gen Idealize.ShloMosaic Idealize.ShloMosaic.ValueIdx Cert.PairForce

/-- Column `j` of the block with row `k` put back: the index the column sum reads. -/
theorem lift_eq (j : Fin 64000) (k : Fin 3) :
    Shape.Reduces.lift reduces_S3x64000_S64000 (ix1 j) k = (ix2 k j : S3x64000.Idx) := by
  funext a
  match a with
  | ⟨0, _⟩ => rfl
  | ⟨1, _⟩ => rfl

/-- A square root of an array reads the square root of the element. -/
theorem sqrt_apply {s : Shape} {φ : FTy} (a : FVec Ideal s φ) (i : s.Idx) : sqrt a i = Ideal.sqrt (a i) := rfl

/-- The separation block: sources less destinations. -/
def sepBlock (x0 x1 : Vec Ideal S3x64000 .f32) : FVec Ideal S3x64000 .f32 :=
  subf (shapeCast S3x64000 x0 shapeCasts_S3x64000_S3x64000) (shapeCast S3x64000 x1 shapeCasts_S3x64000_S3x64000)

/-- The norm row of a separation block: the square root of the column sums of squares. -/
def normRow (v4 : FVec Ideal S3x64000 .f32) (hφ : FKind.Formats .f32)
    (hacc : (0x00000000#32 : BitVec 32) = FKind.add.neutral .f32 hφ) : FVec Ideal S1x64000 .f32 :=
  sqrt (shapeCast S1x64000 (multiReduction .add [0] S64000 (mulf v4 v4) 0x00000000#32 reduces_S3x64000_S64000 hφ hacc)
    shapeCasts_S64000_S1x64000)

/-- The sum's accumulator word is the neutral element of addition. -/
theorem zero_neutral : (0x00000000#32 : BitVec 32) = FKind.add.neutral .f32 (.inl rfl) := rfl

/-- The body after the norm row, from the separation block `v4` and the norm row `v8`: one line per operation of the body. -/
def forceBlock (v4 : FVec Ideal S3x64000 .f32) (v8 : FVec Ideal S1x64000 .f32) : FVec Ideal S3x64000 .f32 :=
  have cst_3 : Ideal .f32 := Scalar.ofBits .f32 0x2B8CBCCC#32
  have v9 : FVec Ideal S1x64000 .f32 := broadcast S1x64000 cst_3
  have v10 : FVec Ideal S1x64000 .f32 := maximumf v8 v9
  have v11 : FVec Ideal S3x64000 .f32 := broadcastTo S3x64000 v10 broadcasts_S1x64000_S3x64000
  have v12 : FVec Ideal S3x64000 .f32 := divf v4 v11
  have cst_4 : Ideal .f32 := Scalar.ofBits .f32 0x3F800000#32
  have v13 : FVec Ideal S1x64000 .f32 := broadcast S1x64000 cst_4
  have v14 : FVec Ideal S1x64000 .f32 := divf v13 v8
  have cst_5 : Ideal .f32 := Scalar.ofBits .f32 0x3F800000#32
  have v15 : FVec Ideal S1x64000 .f32 := broadcast S1x64000 cst_5
  have v16 : FVec Ideal S1x64000 .f32 := mulf v15 v14
  have v17 : FVec Ideal S1x64000 .f32 := mulf v16 v16
  have v18 : FVec Ideal S1x64000 .f32 := mulf v17 v17
  have v19 : FVec Ideal S1x64000 .f32 := mulf v17 v18
  have v20 : FVec Ideal S1x64000 .f32 := mulf v16 v16
  have v21 : FVec Ideal S1x64000 .f32 := mulf v20 v20
  have v22 : FVec Ideal S1x64000 .f32 := mulf v20 v21
  have cst_6 : Ideal .f32 := Scalar.ofBits .f32 0x40800000#32
  have v23 : FVec Ideal S1x64000 .f32 := broadcast S1x64000 cst_6
  have v24 : FVec Ideal S1x64000 .f32 := mulf v23 v19
  have cst_7 : Ideal .f32 := Scalar.ofBits .f32 0x41400000#32
  have v25 : FVec Ideal S1x64000 .f32 := broadcast S1x64000 cst_7
  have v26 : FVec Ideal S1x64000 .f32 := mulf v25 v22
  have cst_8 : Ideal .f32 := Scalar.ofBits .f32 0x40C00000#32
  have v27 : FVec Ideal S1x64000 .f32 := broadcast S1x64000 cst_8
  have v28 : FVec Ideal S1x64000 .f32 := subf v26 v27
  have v29 : FVec Ideal S1x64000 .f32 := mulf v24 v28
  have v30 : FVec Ideal S1x64000 .f32 := mulf v29 v14
  have v31 : FVec Ideal S3x64000 .f32 := broadcastTo S3x64000 v30 broadcasts_S1x64000_S3x64000
  mulf v31 v12

/-- The stored value is `forceBlock` of the separation block and its norm row. -/
theorem payload_eq (x0 x1 : Vec Ideal S3x64000 .f32) :
    k0_pay1 (F := Ideal) x0 x1 = forceBlock (sepBlock x0 x1) (normRow (sepBlock x0 x1) (.inl rfl) zero_neutral) := rfl

/-- The separation block at an index. -/
theorem sepBlock_apply (x0 x1 : Vec Ideal S3x64000 .f32) (i : S3x64000.Idx) : sepBlock x0 x1 i = x0 i - x1 i := by
  unfold sepBlock
  rw [shapeCast_self, shapeCast_self]
  rfl

/-- The norm row at `(0, j)`: the square root of the sum over the three rows of the squares in column `j`. -/
theorem normRow_apply (v : FVec Ideal S3x64000 .f32) (hφ : FKind.Formats .f32)
    (hacc : (0x00000000#32 : BitVec 32) = FKind.add.neutral .f32 hφ) (u : Fin 1) (j : Fin 64000) :
    normRow v hφ hacc (ix2 u j) = Ideal.sqrt (∑ k : Fin 3, v (ix2 k j) * v (ix2 k j)) := by
  unfold normRow
  rw [sqrt_apply, shapeCast_a_1a_apply, Ideal.multiReduction_add_single]
  show Ideal.sqrt (∑ k : Fin 3, mulf v v (Shape.Reduces.lift reduces_S3x64000_S64000 (ix1 j) k)) = _
  refine congrArg Ideal.sqrt (Finset.sum_congr rfl fun k _ => ?_)
  rw [lift_eq, mulf_apply]

/-- `forceBlock` at `(d, j)`: the strength of `1 · (1 / r)` times `1 / r`, times the separation over `max(r, ε)`, with
    `r` the norm row's entry in column `j`. -/
theorem forceBlock_apply (v4 : FVec Ideal S3x64000 .f32) (v8 : FVec Ideal S1x64000 .f32) (d : Fin 3) (j : Fin 64000) :
    forceBlock v4 v8 (ix2 d j)
      = (strength (Ideal.ofBits .f32 0x3F800000#32 * Ideal.div (Ideal.ofBits .f32 0x3F800000#32) (v8 (ix2 (0 : Fin 1) j)))
          * Ideal.div (Ideal.ofBits .f32 0x3F800000#32) (v8 (ix2 (0 : Fin 1) j)))
        * Ideal.div (v4 (ix2 d j)) (max (v8 (ix2 (0 : Fin 1) j)) (Ideal.ofBits .f32 0x2B8CBCCC#32)) := by
  unfold forceBlock strength pow6
  simp only [mulf_apply, subf_apply, divf_apply, maximumf_apply, broadcast_apply, broadcastTo_1b_ab_apply]
  rfl

/-- THE STORED VALUE AT `(d, j)`: component `d` of the message of the edge whose endpoints' positions are column `j` of
    the two blocks. -/
theorem payload_apply (x0 x1 : Vec Ideal S3x64000 .f32) (d : Fin 3) (j : Fin 64000) :
    k0_pay1 (F := Ideal) x0 x1 (ix2 d j) = edgeMsg (fun k => x0 (ix2 k j)) (fun k => x1 (ix2 k j)) d := by
  have hn : normRow (sepBlock x0 x1) (.inl rfl) zero_neutral (ix2 (0 : Fin 1) j)
      = dist (fun k => x0 (ix2 k j)) (fun k => x1 (ix2 k j)) := by
    rw [normRow_apply]
    unfold dist
    simp only [sepBlock_apply]
  rw [payload_eq, forceBlock_apply, hn, sepBlock_apply, ← edgeMsg_recip]

end Cert.PairForce.Kernel
end
-- ==== Proof.KernelValue.lean ====
/-
  The kernel program's result as a function of its arguments.

  The region's output array is `[3, edges]`, cut into fifty blocks of 64000 edges; point `t` of the grid reads block
  `t` of the two input arrays (the endpoints' positions of edges `64000 t … 64000 t + 63999`) and writes block `t` of the
  output. Entry `(d, j)` of what it writes is component `d` of the message of edge `64000 t + j`, so every block is the
  restriction of ONE array, the message array transposed, and the fifty blocks cover it. After the region the program
  transposes that array back to `[edges, 3]` and scatter-adds its rows into a zero table at the destination words.
-/
import proofs.«400013_j50328426774889_1_alg».proof.Proof.KernelInputs
import proofs.«400013_j50328426774889_1_alg».proof.Proof.KernelPayload
import Idealize.ShloMosaic.Lib.Pipeline.Value

set_option maxRecDepth 16384

noncomputable section

namespace Cert.PairForce.Kernel

open Cert.KernelIdeal Cert.KernelIdeal.Gen Idealize.ShloMosaic Idealize.ShloMosaic.TcCoe Idealize.ShloMosaic.ValueIdx Cert.PairForce
open Idealize.SL.Sem Idealize.ShloMosaic.StableHlo
open Idealize.ShloMosaic.Pipeline (Dat Cfg Window)

variable (m : (ℓ : Loc nD τ sig) → Buf (Elt Ideal) ℓ) (ρ : Dev nD → PrngReg)

/-- The message array transposed: at `(d, e)`, component `d` of edge `e`'s message. -/
def messageT (x : FVec Ideal S100000x3 .f32) (src dst : IVec S3200000 32) : S3x3200000.Idx → EReal :=
  fun i => message x src dst (ix2 (⟨(i 1).val, idx2_lt1 i⟩ : Fin 3200000) (⟨(i 0).val, idx2_lt0 i⟩ : Fin 3))

theorem messageT_apply (x : FVec Ideal S100000x3 .f32) (src dst : IVec S3200000 32) (d : Fin 3) (e : Fin 3200000) :
    messageT x src dst (ix2 d e) = edgeMsg (pos x src e) (pos x dst e) d := rfl

theorem zero_offsets : (![0, 0] : Fin 2 → Nat) = fun _ => 0 := funext fun a => by fin_cases a <;> rfl

/-- The printed index maps over the grid: at point `t` every window is at block `(0, t)`. -/
theorem block_at : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The grid has fifty points. -/
theorem points : cfg0.N = 50 := N_0

/-! ## The two input blocks at a point -/

/-- The source block at point `t` is block `t` of the region's first input array. -/
theorem sourceBlock_eq (c : Dev nD) (t : Fin cfg0.N) :
    iblk m c 0 t = ((cfg0.win 0).blk t).view.read (Elt Ideal) (V m c main_v1) := rfl

/-- The destination block at point `t` is block `t` of the region's second input array. -/
theorem destBlock_eq (c : Dev nD) (t : Fin cfg0.N) :
    iblk m c 1 t = ((cfg0.win 1).blk t).view.read (Elt Ideal) (V m c main_v2) := rfl

/-- A block of the first input window read at `(k, j)`: the array at `(k, 64000 t + j)`, whatever the array. -/
theorem read_sourceBlock (c : Dev nD) (t : Fin cfg0.N) (G : Buf (Elt Ideal) ((c : Thread nD τ).loc main_v1)) (k : Fin 3)
    (j : Fin 64000) (e : Fin 3200000) (he : e.val = t.val * 64000 + j.val) :
    (((cfg0.win 0).blk t).view.read (Elt Ideal) G : Vec Ideal S3x64000 .f32) (ix2 k j) = (G : S3x3200000.Idx → EReal) (ix2 k e) := by
  obtain ⟨e0, e1, -, -, -, -⟩ := block_at t
  have hk : k.val < 3 := k.isLt
  rw [View.read_apply]
  have hin : ((cfg0.win 0).blk t).view.emb (ix2 k j) = (ix2 k e : S3x3200000.Idx) := by
    funext a; apply Fin.ext
    match a with
    | ⟨0, _⟩ => show win0_0.index t (0 : Fin 2) * 3 + 1 * k.val = k.val; omega
    | ⟨1, _⟩ => show win0_0.index t (1 : Fin 2) * 64000 + 1 * j.val = e.val; omega
  show (G : S3x3200000.Idx → EReal) (((cfg0.win 0).blk t).view.emb (ix2 k j)) = _
  rw [hin]

/-- A block of the second input window read at `(k, j)`: the array at `(k, 64000 t + j)`, whatever the array. -/
theorem read_destBlock (c : Dev nD) (t : Fin cfg0.N) (G : Buf (Elt Ideal) ((c : Thread nD τ).loc main_v2)) (k : Fin 3)
    (j : Fin 64000) (e : Fin 3200000) (he : e.val = t.val * 64000 + j.val) :
    (((cfg0.win 1).blk t).view.read (Elt Ideal) G : Vec Ideal S3x64000 .f32) (ix2 k j) = (G : S3x3200000.Idx → EReal) (ix2 k e) := by
  obtain ⟨-, -, e2, e3, -, -⟩ := block_at t
  have hk : k.val < 3 := k.isLt
  rw [View.read_apply]
  have hin : ((cfg0.win 1).blk t).view.emb (ix2 k j) = (ix2 k e : S3x3200000.Idx) := by
    funext a; apply Fin.ext
    match a with
    | ⟨0, _⟩ => show win0_1.index t (0 : Fin 2) * 3 + 1 * k.val = k.val; omega
    | ⟨1, _⟩ => show win0_1.index t (1 : Fin 2) * 64000 + 1 * j.val = e.val; omega
  show (G : S3x3200000.Idx → EReal) (((cfg0.win 1).blk t).view.emb (ix2 k j)) = _
  rw [hin]

/-- Entry `(k, j)` of the source block at point `t`: coordinate `k` of the source position of edge `64000 t + j`. -/
theorem sourceBlock_apply (c : Dev nD) (hs : InRange (m ((c : Thread nD τ).loc main_arg1))) (t : Fin cfg0.N) (k : Fin 3)
    (j : Fin 64000) (e : Fin 3200000) (he : e.val = t.val * 64000 + j.val) :
    (iblk m c 0 t : Vec Ideal S3x64000 .f32) (ix2 k j)
      = pos (m ((c : Thread nD τ).loc main_arg0)) (m ((c : Thread nD τ).loc main_arg1)) e k := by
  rw [sourceBlock_eq, read_sourceBlock c t _ k j e he]
  exact (congrFun (V_sources m c) (ix2 k e)).trans (takeCols_apply _ _ hs k e)

/-- Entry `(k, j)` of the destination block at point `t`: coordinate `k` of the destination position of edge `64000 t + j`. -/
theorem destBlock_apply (c : Dev nD) (hd : InRange (m ((c : Thread nD τ).loc main_arg2))) (t : Fin cfg0.N) (k : Fin 3)
    (j : Fin 64000) (e : Fin 3200000) (he : e.val = t.val * 64000 + j.val) :
    (iblk m c 1 t : Vec Ideal S3x64000 .f32) (ix2 k j)
      = pos (m ((c : Thread nD τ).loc main_arg0)) (m ((c : Thread nD τ).loc main_arg2)) e k := by
  rw [destBlock_eq, read_destBlock c t _ k j e he]
  exact (congrFun (V_dests m c) (ix2 k e)).trans (takeCols_apply _ _ hd k e)

/-! ## What a point writes back -/

/-- A staging block `P` whose entry `(d, j)` is the array `G` at `(d, 64000 t + j)` is, written back at point `t`, block
    `t` of `G`: whatever `P` and `G`. -/
theorem write_block (t : Fin cfg0.N) (P : S3x64000.Idx → EReal) (G : S3x3200000.Idx → EReal)
    (h : ∀ (d : Fin 3) (j : Fin 64000) (e : Fin 3200000), e.val = t.val * 64000 + j.val → P (ix2 d j) = G (ix2 d e)) :
    (win0 2).cut (grid0.coords t) P = View.read (Elt Ideal) ((View.whole main_v3).slice ((win0 2).rect t)) G := by
  obtain ⟨-, -, -, -, e4, e5⟩ := block_at t
  have ht : t.val < 50 := lt_of_lt_of_eq t.isLt points
  funext y
  rw [View.read_apply]
  have hy0 : (y 0).val < 3 := (y 0).isLt
  have hy1 : (y 1).val < 64000 := (y 1).isLt
  show P ((win0 2).xinj (grid0.coords t) y) = G (((View.whole main_v3).slice ((win0 2).rect t)).emb y)
  have hx : (win0 2).xinj (grid0.coords t) y = (ix2 (⟨(y 0).val, hy0⟩ : Fin 3) (⟨(y 1).val, hy1⟩ : Fin 64000) : S3x64000.Idx) := by
    funext a; apply Fin.ext
    match a with
    | ⟨0, _⟩ => rfl
    | ⟨1, _⟩ => rfl
  have hemb : ((View.whole main_v3).slice ((win0 2).rect t)).emb y
      = (ix2 (⟨(y 0).val, hy0⟩ : Fin 3) (⟨t.val * 64000 + (y 1).val, by omega⟩ : Fin 3200000) : S3x3200000.Idx) := by
    funext a; apply Fin.ext
    match a with
    | ⟨0, _⟩ => show win0_2.index t (0 : Fin 2) * 3 + 1 * (y 0).val = (y 0).val; omega
    | ⟨1, _⟩ => show win0_2.index t (1 : Fin 2) * 64000 + 1 * (y 1).val = t.val * 64000 + (y 1).val; omega
  rw [hx, hemb]
  exact h _ _ _ rfl

/-- WHAT POINT `t` WRITES BACK is block `t` of the transposed message array of the arguments. -/
theorem flushed_eq (c : Dev nD) (hs : InRange (m ((c : Thread nD τ).loc main_arg1)))
    (hd : InRange (m ((c : Thread nD τ).loc main_arg2))) (t : Fin cfg0.N) :
    (dats m 0 c).flushed 2 t = ((cfg0.win 2).blk t).view.read (Elt Ideal)
      (messageT (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  unfold out0_2
  rw [View.canon_unit_zero zero_offsets]
  simp only [View.ld_unit_zero (S := S3x64000) zero_offsets]
  refine write_block t _ _ fun d j e he => ?_
  rw [payload_apply, messageT_apply, funext fun k => sourceBlock_apply m c hs t k j e he,
    funext fun k => destBlock_apply m c hd t k j e he]

/-- An index of the output array is in point `t`'s block iff each coordinate is in the block's range on its axis. -/
theorem mem_block (t : Fin cfg0.N) (i : S3x3200000.Idx) :
    i ∈ ((cfg0.win 2).blk t).view.set ↔ ∀ a : Fin 2, win0_2.index t a * S3x64000.size a ≤ (i a).val
      ∧ (i a).val < win0_2.index t a * S3x64000.size a + S3x64000.size a := by
  show i ∈ ((View.whole main_v3).slice (win0_2.rect t)).set ↔ _
  rw [View.set_slice_whole, Rect.mem_set_unit]
  exact Iff.rfl

/-- THE OUTPUT ARRAY after the run is the transposed message array: edge `e` lies in the block of point `e / 64000`. -/
theorem final (c : Dev nD) (hs : InRange (m ((c : Thread nD τ).loc main_arg1))) (hd : InRange (m ((c : Thread nD τ).loc main_arg2))) :
    (dats m 0 c).arrAt 2 cfg0.N
      = messageT (m ((c : Thread nD τ).loc main_arg0)) (m ((c : Thread nD τ).loc main_arg1)) (m ((c : Thread nD τ).loc main_arg2)) :=
  (dats m 0 c).arrAt_eq_of_cover 2 _ (fun t _ => flushed_eq m c hs hd t) fun i => by
    have hi0 : (i 0).val < 3 := (i 0).isLt
    have hi1 : (i 1).val < 3200000 := (i 1).isLt
    have hN := points
    refine ⟨⟨(i 1).val / 64000, by omega⟩, flush0_2 _, ?_⟩
    rw [mem_block]
    obtain ⟨-, -, -, -, e4, e5⟩ := block_at ⟨(i 1).val / 64000, by omega⟩
    intro a
    match a with
    | ⟨0, _⟩ =>
      show win0_2.index ⟨(i 1).val / 64000, _⟩ (0 : Fin 2) * 3 ≤ (i 0).val
        ∧ (i 0).val < win0_2.index ⟨(i 1).val / 64000, _⟩ (0 : Fin 2) * 3 + 3
      rw [e4]; omega
    | ⟨1, _⟩ =>
      show win0_2.index ⟨(i 1).val / 64000, _⟩ (1 : Fin 2) * 64000 ≤ (i 1).val
        ∧ (i 1).val < win0_2.index ⟨(i 1).val / 64000, _⟩ (1 : Fin 2) * 64000 + 64000
      rw [e5]
      show (i 1).val / 64000 * 64000 ≤ (i 1).val ∧ (i 1).val < (i 1).val / 64000 * 64000 + 64000
      omega

/-- The message array transposed back is the message array. -/
theorem transpose_messageT (x : FVec Ideal S100000x3 .f32) (src dst : IVec S3200000 32) :
    transpose S3200000x3 [1, 0] (messageT x src dst) transposes_S3x3200000_S3200000x3_1_0 = message x src dst := by
  funext i
  obtain ⟨e, d, rfl⟩ : ∃ (e : Fin 3200000) (d : Fin 3), i = ix2 e d := ⟨i 0, i 1, eq_ix2 i⟩
  rw [transpose_apply [1, 0] (messageT x src dst) transposes_S3x3200000_S3200000x3_1_0 (ix2 e d) (ix2 d e) (fun b => match b with
    | ⟨0, _⟩ => rfl
    | ⟨1, _⟩ => rfl)]
  rfl

/-- THE PROGRAM'S RESULT: the scatter-add, at the destination words, of the message array into the zero table. -/
def result (c : Dev nD) : FVec Ideal S100000x3 .f32 :=
  Host.scatterAdd (F := Ideal) scatter_S100000x3_S3200000x1_S3200000x3_1_0_0_1
    (broadcastInDim S100000x3 ![] bcast_S_S100000x3 (constant (F := Ideal) S_ .f32 0x00000000#32))
    (broadcastInDim S3200000x1 ![0] bcast_S3200000_S3200000x1_0 (m ((c : Thread nD τ).loc main_arg2)))
    (message (m ((c : Thread nD τ).loc main_arg0)) (m ((c : Thread nD τ).loc main_arg1)) (m ((c : Thread nD τ).loc main_arg2)))

set_option maxHeartbeats 2000000 in
/-- What the operations after the region leave in the result buffer: they transpose the region's output array (the
    transposed message array) and scatter-add it at the destination words, which no operation has written. -/
theorem result_eq (c : Dev nD) (hs : InRange (m ((c : Thread nD τ).loc main_arg1))) (hd : InRange (m ((c : Thread nD τ).loc main_arg2))) :
    (Pipeline.afterTail₀ cfgs (dats m) 0 (V0 m) [hostOps1] c main_v7 : FVec Ideal S100000x3 .f32) = result m c := by
  unfold Pipeline.afterTail₀
  show StableHlo.after hostOps1 _ (Proc.devRef .tc main_v7) = _
  after_results
  have hW2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have hW3 : Pipeline.withArrays (cfgs 0).spec c (V0 m c) (fun w => (dats m 0 c).arrAt w (cfgs 0).N) (Proc.devRef .tc main_v3)
      = messageT (m ((c : Thread nD τ).loc main_arg0)) (m ((c : Thread nD τ).loc main_arg1)) (m ((c : Thread nD τ).loc main_arg2)) :=
    (Pipeline.withArrays_arr spec0 launch0.win.arr_inj c _ _ 2).trans (final m c hs hd)
  rw [hW2, hW3, transpose_messageT]
  rfl

/-- THE RUN, READ: every weakly fair execution of the kernel program ends with the result buffer at `result` and the
    arguments unchanged, the index words being in range. -/
theorem run (hr : ∀ c : Dev nD, InRange (m ((c : Thread nD τ).loc main_arg1)) ∧ InRange (m ((c : Thread nD τ).loc main_arg2))) :
    θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v7 (Pipeline.mem_restRefs_of main_v7 (by decide) (by decide))).trans (result_eq m c (hr c).1 (hr c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PairForce.Kernel

end
-- ==== Proof.RefMessage.lean ====
/-
  The reference program's message array is `message`.

  The reference gathers the rows `x[src]` and `x[dst]` of the position table (a gather clamps its start index; the index
  column is the index word wrapped when negative), subtracts them, takes the row norm as the square root of the sum of
  the three squares from zero, and forms `(4 s⁶ (12 s⁶ − 6) / r) · Δ / max(r, ε)` with `s = 1 / r` — the very
  spelling `edgeMsg` has, so that once each stage is read at an index the two sides are the same term.
-/
import proofs.«400013_j50328426774889_1_alg».proof.Proof.Spec
import proofs.«400013_j50328426774889_1_alg».proof.Proof.Gen.ReferenceIdeal.Read

noncomputable section

namespace Cert.PairForce.Ref

open Cert.ReferenceIdeal Cert.ReferenceIdeal.Read Idealize.ShloMosaic Idealize.ShloMosaic.ValueIdx Cert.PairForce

/-- The reference's gather of table rows, read at `(e, d)`: coordinate `d` of the row the start index at `(e, 0)` selects
    (the start index read signed and clamped into the table). -/
theorem gatherRows_apply {α : Type} (x : S100000x3.Idx → α) (idx : IVec S3200000x1 32) (e : Fin 3200000) (d : Fin 3) :
    Host.gather gather_S100000x3_S3200000x1_S3200000x3_1_0_n_n_0_1_13 x idx (ix2 e d)
      = x (ix2 (node (idx (ix2 e (0 : Fin 1)))) d) := by
  unfold Host.gather
  refine congrArg x (funext fun a => Fin.ext ?_)
  match a with
  | ⟨0, _⟩ =>
    show GatherDims.start gather_S100000x3_S3200000x1_S3200000x3_1_0_n_n_0_1_13 (ix2 e d) idx (0 : Fin 2)
      + GatherDims.batchCoord gather_S100000x3_S3200000x1_S3200000x3_1_0_n_n_0_1_13 (ix2 e d) (0 : Fin 2)
      + GatherDims.offCoord gather_S100000x3_S3200000x1_S3200000x3_1_0_n_n_0_1_13 (ix2 e d) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S100000x3_S3200000x1_S3200000x3_1_0_n_n_0_1_13 from
      List.mem_singleton.mpr rfl)]
    have hsi : GatherDims.siIdx gather_S100000x3_S3200000x1_S3200000x3_1_0_n_n_0_1_13 (ix2 e d)
        ⟨List.idxOf (0 : Fin 2) (GatherDims.startIndexMap gather_S100000x3_S3200000x1_S3200000x3_1_0_n_n_0_1_13),
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gather_S100000x3_S3200000x1_S3200000x3_1_0_n_n_0_1_13 (ix2 e d) idx (1 : Fin 2)
      + GatherDims.batchCoord gather_S100000x3_S3200000x1_S3200000x3_1_0_n_n_0_1_13 (ix2 e d) (1 : Fin 2)
      + GatherDims.offCoord gather_S100000x3_S3200000x1_S3200000x3_1_0_n_n_0_1_13 (ix2 e d) (1 : Fin 2) = _
    rw [GatherDims.batchCoord_eq_zero _ _ _ List.not_mem_nil]
    unfold GatherDims.start
    rw [dif_neg (show (1 : Fin 2) ∉ GatherDims.startIndexMap gather_S100000x3_S3200000x1_S3200000x3_1_0_n_n_0_1_13 from
      fun h => absurd (List.mem_singleton.mp h : (1 : Fin 2) = 0) (by decide))]
    simp only [Nat.add_zero, Nat.zero_add]
    unfold GatherDims.offCoord
    rw [dif_pos ((GatherDims.mem_sKept gather_S100000x3_S3200000x1_S3200000x3_1_0_n_n_0_1_13 (1 : Fin 2)).mpr
      ⟨fun h => absurd (List.mem_singleton.mp h : (1 : Fin 2) = 0) (by decide), List.not_mem_nil⟩)]
    rfl

variable (x : (⟨S100000x3, .f32⟩ : BufTy).Contents (Elt Ideal)) (src dst : (⟨S3200000, .i32⟩ : BufTy).Contents (Elt Ideal))

/-- The start-index column of the first gather at `(e, 0)`: edge `e`'s source word, wrapped. -/
theorem srcCol_apply (e : Fin 3200000) : val_main_v5 (F := Ideal) src (ix2 e (0 : Fin 1)) = wrap (src (ix1 e)) := by
  rw [val_main_v5_apply]
  have hi : idx_main_v5 (ix2 e (0 : Fin 1)) = ix1 e := funext fun a => Fin.ext (by match a with | ⟨0, _⟩ => rfl)
  rw [hi, val_main_v4_apply, val_main_v1_apply, val_main_v3_apply, val_main_v0_apply, val_main_v2_apply, val_main_c_apply,
    val_main_c_0_apply]
  rfl

/-- The start-index column of the second gather at `(e, 0)`: edge `e`'s destination word, wrapped. -/
theorem dstCol_apply (e : Fin 3200000) : val_main_v12 (F := Ideal) dst (ix2 e (0 : Fin 1)) = wrap (dst (ix1 e)) := by
  rw [val_main_v12_apply]
  have hi : idx_main_v12 (ix2 e (0 : Fin 1)) = ix1 e := funext fun a => Fin.ext (by match a with | ⟨0, _⟩ => rfl)
  rw [hi, val_main_v11_apply, val_main_v8_apply, val_main_v10_apply, val_main_v7_apply, val_main_v9_apply, val_main_c_1_apply,
    val_main_c_2_apply]
  rfl

/-- The separation at `(e, d)`: the source node's coordinate `d` less the destination node's. -/
theorem sep_apply (e : Fin 3200000) (d : Fin 3) :
    val_main_v14 (F := Ideal) x src dst (ix2 e d) = pos x src e d - pos x dst e d := by
  rw [val_main_v14_apply]
  unfold val_main_v6 val_main_v13
  rw [gatherRows_apply, gatherRows_apply, srcCol_apply, dstCol_apply, Ideal.subf_def]
  unfold pos
  rfl

/-- The row norm at `(e, 0)`: the length of edge `e`'s separation. -/
theorem norm_apply (e : Fin 3200000) :
    val_main_v15 (F := Ideal) x src dst (ix2 e (0 : Fin 1)) = dist (pos x src e) (pos x dst e) := by
  rw [val_main_v15_apply, val_main_call0_v2_apply]
  have hi : idx_main_call0_v2 (ix2 e (0 : Fin 1)) = ix1 e := funext fun a => Fin.ext (by match a with | ⟨0, _⟩ => rfl)
  have hk : ∀ k : Fin 3, idx_main_call0_v1 (ix1 e) k = ix2 e k := fun k =>
    funext fun a => Fin.ext (by match a with | ⟨0, _⟩ => rfl | ⟨1, _⟩ => rfl)
  rw [hi, val_main_call0_v1_apply, val_main_call0_cst_apply]
  simp only [hk, val_main_call0_v0_apply, sep_apply, Ideal.hostUnary_sqrt_def, Ideal.mulf_def, Ideal.ofBits_def,
    Ideal.ofBits_zero_f32, zero_add]
  unfold dist
  rfl

/-- The force magnitude at `(e, 0)`: the strength of `1 / r` over `r`, stage by stage (the reciprocal, its square, fourth
    and sixth powers, `4 s⁶`, `12 s⁶ − 6`, their product, the quotient by `r`). -/
theorem force_apply (e : Fin 3200000) :
    val_main_v35 (F := Ideal) x src dst (ix2 e (0 : Fin 1))
      = Ideal.div (strength (Ideal.div (Ideal.ofBits .f32 0x3F800000#32) (dist (pos x src e) (pos x dst e))))
          (dist (pos x src e) (pos x dst e)) := by
  have hr := norm_apply x src dst e
  have h21 : val_main_v21 (F := Ideal) x src dst (ix2 e (0 : Fin 1))
      = Ideal.div (Ideal.ofBits .f32 0x3F800000#32) (dist (pos x src e) (pos x dst e)) := by
    rw [val_main_v21_apply, val_main_v20_apply, val_main_cst_3_apply, hr, Ideal.hostDivf_def, Ideal.ofBits_def]
  have h22 : val_main_v22 (F := Ideal) x src dst (ix2 e (0 : Fin 1))
      = val_main_v21 (F := Ideal) x src dst (ix2 e (0 : Fin 1)) * val_main_v21 (F := Ideal) x src dst (ix2 e (0 : Fin 1)) := by
    rw [val_main_v22_apply, Ideal.mulf_def]
  have h23 : val_main_v23 (F := Ideal) x src dst (ix2 e (0 : Fin 1))
      = val_main_v22 (F := Ideal) x src dst (ix2 e (0 : Fin 1)) * val_main_v22 (F := Ideal) x src dst (ix2 e (0 : Fin 1)) := by
    rw [val_main_v23_apply, Ideal.mulf_def]
  have h24 : val_main_v24 (F := Ideal) x src dst (ix2 e (0 : Fin 1))
      = pow6 (Ideal.div (Ideal.ofBits .f32 0x3F800000#32) (dist (pos x src e) (pos x dst e))) := by
    rw [val_main_v24_apply, Ideal.mulf_def, h23, h22, h21]
    rfl
  have h27 : val_main_v27 (F := Ideal) x src dst (ix2 e (0 : Fin 1))
      = val_main_v21 (F := Ideal) x src dst (ix2 e (0 : Fin 1)) * val_main_v21 (F := Ideal) x src dst (ix2 e (0 : Fin 1)) := by
    rw [val_main_v27_apply, Ideal.mulf_def]
  have h28 : val_main_v28 (F := Ideal) x src dst (ix2 e (0 : Fin 1))
      = val_main_v27 (F := Ideal) x src dst (ix2 e (0 : Fin 1)) * val_main_v27 (F := Ideal) x src dst (ix2 e (0 : Fin 1)) := by
    rw [val_main_v28_apply, Ideal.mulf_def]
  have h29 : val_main_v29 (F := Ideal) x src dst (ix2 e (0 : Fin 1))
      = pow6 (Ideal.div (Ideal.ofBits .f32 0x3F800000#32) (dist (pos x src e) (pos x dst e))) := by
    rw [val_main_v29_apply, Ideal.mulf_def, h28, h27, h21]
    rfl
  have h26 : val_main_v26 (F := Ideal) x src dst (ix2 e (0 : Fin 1))
      = Ideal.ofBits .f32 0x40800000#32 * pow6 (Ideal.div (Ideal.ofBits .f32 0x3F800000#32) (dist (pos x src e) (pos x dst e))) := by
    rw [val_main_v26_apply, val_main_v25_apply, val_main_cst_4_apply, h24, Ideal.mulf_def, Ideal.ofBits_def]
  have h33 : val_main_v33 (F := Ideal) x src dst (ix2 e (0 : Fin 1))
      = Ideal.ofBits .f32 0x41400000#32 * pow6 (Ideal.div (Ideal.ofBits .f32 0x3F800000#32) (dist (pos x src e) (pos x dst e)))
        - Ideal.ofBits .f32 0x40C00000#32 := by
    rw [val_main_v33_apply, val_main_v31_apply, val_main_v30_apply, val_main_cst_5_apply, val_main_v32_apply,
      val_main_cst_6_apply, h29, Ideal.subf_def, Ideal.mulf_def, Ideal.ofBits_def, Ideal.ofBits_def]
  rw [val_main_v35_apply, val_main_v34_apply, h26, h33, hr, Ideal.hostDivf_def, Ideal.mulf_def]
  rfl

/-- The unit separation at `(e, d)`: the separation over `max(r, ε)`. -/
theorem unit_apply (e : Fin 3200000) (d : Fin 3) :
    val_main_v19 (F := Ideal) x src dst (ix2 e d)
      = Ideal.div (pos x src e d - pos x dst e d) (max (dist (pos x src e) (pos x dst e)) (Ideal.ofBits .f32 0x2B8CBCCC#32)) := by
  have h18 : idx_main_v18 (ix2 e d) = ix2 e (0 : Fin 1) :=
    funext fun a => Fin.ext (by match a with | ⟨0, _⟩ => rfl | ⟨1, _⟩ => rfl)
  rw [val_main_v19_apply, val_main_v18_apply, h18, val_main_v17_apply, val_main_v16_apply, val_main_cst_apply, norm_apply,
    sep_apply, Ideal.hostDivf_def, Ideal.maximumf_def, Ideal.ofBits_def]

/-- THE REFERENCE'S MESSAGE ARRAY is `message` of the arguments. -/
theorem message_eq : val_main_v37 (F := Ideal) x src dst = message x src dst := by
  funext i
  obtain ⟨e, d, rfl⟩ : ∃ (e : Fin 3200000) (d : Fin 3), i = ix2 e d := ⟨i 0, i 1, eq_ix2 i⟩
  have h36 : idx_main_v36 (ix2 e d) = ix2 e (0 : Fin 1) :=
    funext fun a => Fin.ext (by match a with | ⟨0, _⟩ => rfl | ⟨1, _⟩ => rfl)
  rw [message_apply, val_main_v37_apply, val_main_v36_apply, h36, force_apply, unit_apply, Ideal.mulf_def]
  rfl

end Cert.PairForce.Ref

end
-- ==== Proof.lean ====
/-
  The certificate: a Lennard-Jones message-passing step over a graph, the kernel program against its jnp reference.

  Both programs compute, for every edge, the pair force between its endpoints along their unit separation — the edge's
  message — and add each message into its destination node's row of a zero `[nodes, 3]` table. The reference gathers
  rows `x[src]`, `x[dst]` and works on `[edges, 3]` arrays; the kernel program takes columns of the transposed table,
  runs the force computation in a grid of fifty blocks of 64000 edges on `[3, edges]` arrays, and transposes back.
  Under the precondition (finite positions; every index word a row of the table, `0 ≤ i < 100000`, without which a
  take fills what a gather clamps) the two message arrays are one function of the arguments (`message`): the kernel
  body's `strength · (1 / r)` is the reference's `strength / r` on all extended reals, `r = 0` included. Both programs
  then apply the same scatter-add of that array at the same destination words to the same zero table.

  The three frames are the generated ones (the reference's is its generated run with the result dropped); the ideal
  pass rewrote nothing, so `preserves` is `True`.
-/
import proofs.«400013_j50328426774889_1_alg».proof.Defs
import proofs.«400013_j50328426774889_1_alg».proof.Proof.Gen.Kernel
import proofs.«400013_j50328426774889_1_alg».proof.Proof.Gen.Kernel.Skeleton
import proofs.«400013_j50328426774889_1_alg».proof.Proof.Gen.Kernel.Launch
import proofs.«400013_j50328426774889_1_alg».proof.Proof.Gen.Kernel.Points
import proofs.«400013_j50328426774889_1_alg».proof.Proof.Gen.Kernel.Frame
import proofs.«400013_j50328426774889_1_alg».proof.Proof.Gen.KernelIdeal
import proofs.«400013_j50328426774889_1_alg».proof.Proof.Gen.KernelIdeal.Skeleton
import proofs.«400013_j50328426774889_1_alg».proof.Proof.Gen.KernelIdeal.Launch
import proofs.«400013_j50328426774889_1_alg».proof.Proof.Gen.KernelIdeal.Points
import proofs.«400013_j50328426774889_1_alg».proof.Proof.Gen.KernelIdeal.Frame
import proofs.«400013_j50328426774889_1_alg».proof.Proof.Gen.ReferenceIdeal
import proofs.«400013_j50328426774889_1_alg».proof.Proof.Gen.Pre_finite_inputs
import proofs.«400013_j50328426774889_1_alg».proof.Proof.Gen.ReferenceIdeal.Run
import proofs.«400013_j50328426774889_1_alg».proof.Proof.Gen.ReferenceIdeal.Read
import proofs.«400013_j50328426774889_1_alg».proof.Proof.KernelValue
import proofs.«400013_j50328426774889_1_alg».proof.Proof.RefMessage
import Idealize.ShloMosaic.Adequacy
import Idealize.ShloMosaic.Init

noncomputable section

namespace Cert.Proof

open Idealize.ShloMosaic Idealize.SL.Sem Cert.PairForce

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the scatter-add of `message` of the arguments at the destination words into the zero table:
    the kernel program by its value (Proof/KernelValue.lean), the reference by its generated run with its message stage
    read as `message` (Proof/RefMessage.lean), the arguments agreeing. -/
theorem algebraic : Cert.algebraic_KernelIdeal_ReferenceIdeal := by
  intro m ρ m' ρ' hpre hagree
  have hrange : ∀ c : Dev Cert.KernelIdeal.nD,
      InRange (m ((c.tc : Thread Cert.KernelIdeal.nD Cert.KernelIdeal.τ).loc Cert.KernelIdeal.main_arg1))
      ∧ InRange (m ((c.tc : Thread Cert.KernelIdeal.nD Cert.KernelIdeal.τ).loc Cert.KernelIdeal.main_arg2)) :=
    fun c => inRange_of_pre _ _ _ (hpre c)
  refine ⟨_, Cert.PairForce.Kernel.run m ρ hrange, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]
  unfold Cert.ReferenceIdeal.Read.val_main_v40
  rw [Cert.PairForce.Ref.message_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
